-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x4096 .f32 .bf16
  ∧ IdealRules.truncf_extf.Statement Cert.KernelIdeal.S128x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel

variable [Facts]

def fn {F : FTy → Type} [FloatOps F] (main_arg0 : FVec F S4x128x64x64 .f32) (main_arg1 : FVec F S4x128x64x64 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  main_v8
-- ==== Kernel.lean ====
abbrev S4x128x64x64 : Shape := ⟨4, ![4, 128, 64, 64]⟩
abbrev S4x128x4096 : Shape := ⟨3, ![4, 128, 4096]⟩
abbrev S4x4096x4096 : Shape := ⟨3, ![4, 4096, 4096]⟩
abbrev S1x128x4096 : Shape := ⟨3, ![1, 128, 4096]⟩
abbrev S1x4096x512 : Shape := ⟨3, ![1, 4096, 512]⟩
abbrev S128x4096 : Shape := ⟨2, ![128, 4096]⟩
abbrev S4096x1 : Shape := ⟨2, ![4096, 1]⟩
abbrev S4096 : Shape := ⟨1, ![4096]⟩
abbrev S1x4096 : Shape := ⟨2, ![1, 4096]⟩
abbrev S1x128x512 : Shape := ⟨3, ![1, 128, 512]⟩
abbrev S128x512 : Shape := ⟨2, ![128, 512]⟩
abbrev S4096x512 : Shape := ⟨2, ![4096, 512]⟩
abbrev S512 : Shape := ⟨1, ![512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x128x4096, .f32⟩
  | .hbm, ⟨3, _⟩ => ⟨S4x128x4096, .f32⟩
  | .hbm, ⟨4, _⟩ => ⟨S4x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x4096x512, .f32⟩
  | .local _ .vmem, ⟨5, _⟩ => ⟨S1x4096x512, .f32⟩
  | .local _ .vmem, ⟨6, _⟩ => ⟨S128x4096, .bf16⟩
  | .local _ .vmem, ⟨7, _⟩ => ⟨S128x4096, .bf16⟩
  | .local _ .vmem, ⟨8, _⟩ => ⟨S4096x1, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let c0_1 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x128x64x64_S4x128x4096 : S4x128x64x64.ShapeCasts S4x128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  reduces_S128x4096_S4096 : S128x4096.Reduces [0] S4096
  shapeCasts_S4096_S1x4096 : S4096.ShapeCasts S1x4096
  transposes_S1x4096_p1_0_S4096x1 : S1x4096.Transposes [1, 0] S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  h_S1x128x512 : 0 < S1x128x512.numel
  shapeCasts_S1x128x512_S128x512 : S1x128x512.ShapeCasts S128x512
  broadcasts_S4096x1_S4096x512 : S4096x1.Broadcasts S4096x512
  reduces_S4096x512_S512 : S4096x512.Reduces [0] S512
  shapeCasts_S512_S1x512 : S512.ShapeCasts S1x512
  broadcasts_S1x512_S4096x512 : S1x512.Broadcasts S4096x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  dot_S128x4096_S128x512_S4096x512_0_0_1_1_n_n_wf : DotDims.WF S128x4096 S128x512 S4096x512 [0] [0] [1] [1] [] []
  hrank0 : 0 < grid0.rank
  k0_mult1_dvd : ∀ i : grid0.Coords, 512 ∣ (k0_mult1 i).toNat
  k0_off1_inb : ∀ i : grid0.Coords, ∀ a, (k0_off1 i) a + S1x128x512.size a ≤ S1x128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x128x4096.size a
  hwx0_0 : ∀ i : grid0.Coords, EltTy.bits .f32 = 32 ∨ (Rect.block (s := S4x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x128x4096.size a
  hwx0_1 : ∀ i : grid0.Coords, EltTy.bits .f32 = 32 ∨ (Rect.block (s := S4x128x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x512.size a ≤ S4x4096x4096.size a
  hwx0_2 : ∀ i : grid0.Coords, EltTy.bits .f32 = 32 ∨ (Rect.block (s := S4x4096x4096) S1x4096x512.size (cc0_transform_2 i) (hinb0_2 i)).WholeWords (EltTy.packing .f32)

variable [Facts₀]

def dot_S128x4096_S128x512_S4096x512_0_0_1_1_n_n : DotDims S128x4096 S128x512 S4096x512 where
  lhsContracting := [0]
  rhsContracting := [0]
  lhsNonContracting := [1]
  rhsNonContracting := [1]
  lhsBatch := []
  rhsBatch := []
  wf := dot_S128x4096_S128x512_S4096x512_0_0_1_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S4x128x4096 : Shape := ⟨3, ![4, 128, 4096]⟩
abbrev S4x4096x4096 : Shape := ⟨3, ![4, 4096, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x128x4096, .f32⟩
  | .hbm, ⟨3, _⟩ => ⟨S4x128x4096, .f32⟩
  | .hbm, ⟨4, _⟩ => ⟨S4x4096x4096, .f32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x1, .i32⟩
  | .hbm, ⟨23, _⟩ => ⟨S4096x2, .i32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x1x4096, .f32⟩
  | .hbm, ⟨32, _⟩ => ⟨S_, .f32⟩
  | .hbm, ⟨33, _⟩ => ⟨S4x1x4096, .f32⟩
  | .hbm, ⟨34, _⟩ => ⟨S4x1x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x1x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x1x4096, .f32⟩
  | .hbm, ⟨49, _⟩ => ⟨S4x4096x4096, .f32⟩
  | .hbm, ⟨50, _⟩ => ⟨S4x4096x4096, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_v7 : Ref sig .tc := ⟨.hbm, 15, rfl⟩
abbrev main_call0_v8 : Ref sig .tc := ⟨.hbm, 16, rfl⟩
abbrev main_call0_c_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  dot_S4x128x4096_S4x128x4096_S4x4096x4096_1_1_2_2_0_0_wf : DotDims.WF S4x128x4096 S4x128x4096 S4x4096x4096 [1] [1] [2] [2] [0] [0]
  gather_S4x4096x4096_S4096x2_S4x4096_0_12_n_n_12_1_411_wf : GatherDims.WF S4x4096x4096 S4096x2 S4x4096 [0] [1, 2] [] [1, 2] [] 1 ![4, 1, 1]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf
def gather_S4x4096x4096_S4096x2_S4x4096_0_12_n_n_12_1_411 : GatherDims S4x4096x4096 S4096x2 S4x4096 where
  offsetDims := [0]
  collapsedSliceDims := [1, 2]
  operandBatchingDims := []
  startIndicesBatchingDims := []
  startIndexMap := [1, 2]
  indexVectorDim := 1
  sliceSizes := ![4, 1, 1]
  wf := gather_S4x4096x4096_S4096x2_S4x4096_0_12_n_n_12_1_411_wf

class Facts : Prop extends Facts₀ where

variable [Facts]
-- ==== Proof.KPieces.lean ====
/-
  What one grid point leaves behind, as values.  At the first column tile of a batch the body stores three things it
  keeps for the batch's other tiles — the first input's block (as its leading part), that block minus itself (the
  residual part), and the column of channel sums Σ_k x0[k, p] · x1[k, p] — and then computes the output tile from them;
  at every other tile it computes the output tile from what the tile before left.  Either way the output tile is ONE
  function of a 512-column tile of the second input's block and the three kept arrays.
-/
import proofs.«401349_j18116172055210_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.NlmPieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 512-column tile of a [1, 128, 4096] block that the point with coordinates `i` reads: columns from 512 · i₁. -/
abbrev ytile (i : grid0.Coords) (x1 : Vec F S1x128x4096 .f32) : Vec F S1x128x512 .f32 :=
  View.ld x1 (Rect.unit (s := S1x128x4096) (k0_off1 i) S1x128x512.size (k0_off1_inb i))

/-- At a batch's first tile the first kept array is the first input's block, re-laid as [128, 4096]. -/
theorem keptLead_first (c : Dev nD) (i : grid0.Coords) (a2 : Memref sig .tc .vmem S1x128x4096 .f32) (h2 : a2.IsWhole)
    (a3 : Memref sig .tc .vmem S1x128x4096 .f32) (h3 : a3.IsWhole) (a4 : Memref sig .tc .vmem S1x4096x512 .f32) (h4 : a4.IsWhole)
    (a5 : Memref sig .tc .vmem S128x4096 .bf16) (h5 : a5.IsWhole) (a6 : Memref sig .tc .vmem S128x4096 .bf16) (h6 : a6.IsWhole)
    (a7 : Memref sig .tc .vmem S4096x1 .f32) (h7 : a7.IsWhole) (hc : cond0_0 i)
    (x0 x1 : Vec F S1x128x4096 .f32) :
    sout0_A_0 c i a2 h2 a3 h3 a4 h4 a5 h5 a6 h6 a7 h7 hc x0 x1 = k0_pay2 x0 := by
  unfold sout0_A_0
  rw [View.read_writes_eq_canon _ _ _ (scover0_A_0 c i a2 h2 a3 h3 a4 h4 a5 h5 a6 h6 a7 h7 hc x0 x1)]
  unfold kernelRun0_A
  dsimp only
  sl_unfold_words
  rw [View.canon_unit_zero hz2]
  simp only [View.readAt_eq_ld, h2.read_unread, h3.read_unread, View.ld_unit_zero (S := S1x128x4096) hz3]

/-- … the second kept array is that block minus itself … -/
theorem keptResid_first (c : Dev nD) (i : grid0.Coords) (a2 : Memref sig .tc .vmem S1x128x4096 .f32) (h2 : a2.IsWhole)
    (a3 : Memref sig .tc .vmem S1x128x4096 .f32) (h3 : a3.IsWhole) (a4 : Memref sig .tc .vmem S1x4096x512 .f32) (h4 : a4.IsWhole)
    (a5 : Memref sig .tc .vmem S128x4096 .bf16) (h5 : a5.IsWhole) (a6 : Memref sig .tc .vmem S128x4096 .bf16) (h6 : a6.IsWhole)
    (a7 : Memref sig .tc .vmem S4096x1 .f32) (h7 : a7.IsWhole) (hc : cond0_0 i)
    (x0 x1 : Vec F S1x128x4096 .f32) :
    sout0_A_1 c i a2 h2 a3 h3 a4 h4 a5 h5 a6 h6 a7 h7 hc x0 x1 = k0_pay3 x0 := by
  unfold sout0_A_1
  rw [View.read_writes_eq_canon _ _ _ (scover0_A_1 c i a2 h2 a3 h3 a4 h4 a5 h5 a6 h6 a7 h7 hc x0 x1)]
  unfold kernelRun0_A
  dsimp only
  sl_unfold_words
  rw [View.canon_unit_zero hz2]
  simp only [View.readAt_eq_ld, h2.read_unread, h3.read_unread, View.ld_unit_zero (S := S1x128x4096) hz3]

/-- … and the third the column of channel sums of the two blocks' products. -/
theorem keptDiag_first (c : Dev nD) (i : grid0.Coords) (a2 : Memref sig .tc .vmem S1x128x4096 .f32) (h2 : a2.IsWhole)
    (a3 : Memref sig .tc .vmem S1x128x4096 .f32) (h3 : a3.IsWhole) (a4 : Memref sig .tc .vmem S1x4096x512 .f32) (h4 : a4.IsWhole)
    (a5 : Memref sig .tc .vmem S128x4096 .bf16) (h5 : a5.IsWhole) (a6 : Memref sig .tc .vmem S128x4096 .bf16) (h6 : a6.IsWhole)
    (a7 : Memref sig .tc .vmem S4096x1 .f32) (h7 : a7.IsWhole) (hc : cond0_0 i)
    (x0 x1 : Vec F S1x128x4096 .f32) :
    sout0_A_2 c i a2 h2 a3 h3 a4 h4 a5 h5 a6 h6 a7 h7 hc x0 x1 = k0_pay4 x0 x1 := by
  unfold sout0_A_2
  rw [View.read_writes_eq_canon _ _ _ (scover0_A_2 c i a2 h2 a3 h3 a4 h4 a5 h5 a6 h6 a7 h7 hc x0 x1)]
  unfold kernelRun0_A
  dsimp only
  sl_unfold_words
  rw [View.canon_unit_zero hz2]
  simp only [View.readAt_eq_ld, h2.read_unread, h3.read_unread, View.ld_unit_zero (S := S1x128x4096) hz3]

/-- At a batch's first tile the output tile is computed from the three arrays just stored. -/
theorem out_first (c : Dev nD) (i : grid0.Coords) (a2 : Memref sig .tc .vmem S1x128x4096 .f32) (h2 : a2.IsWhole)
    (a3 : Memref sig .tc .vmem S1x128x4096 .f32) (h3 : a3.IsWhole) (a4 : Memref sig .tc .vmem S1x4096x512 .f32) (h4 : a4.IsWhole)
    (a5 : Memref sig .tc .vmem S128x4096 .bf16) (h5 : a5.IsWhole) (a6 : Memref sig .tc .vmem S128x4096 .bf16) (h6 : a6.IsWhole)
    (a7 : Memref sig .tc .vmem S4096x1 .f32) (h7 : a7.IsWhole) (hc : cond0_0 i)
    (x0 x1 : Vec F S1x128x4096 .f32) :
    out0_A_2 c i a2 h2 a3 h3 a4 h4 a5 h5 a6 h6 a7 h7 hc x0 x1 = k0_pay5 (ytile i x1) (k0_pay2 x0) (k0_pay3 x0) (k0_pay4 x0 x1) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_unit_zero hz3]
  simp only [View.readAt_eq_ld, h2.read_unread, h3.read_unread, View.ld_unit_zero (S := S1x128x4096) hz3,
    View.readCov_unit_zero (S := S128x4096) _ hz2, View.readCov_unit_zero (S := S4096x1) _ hz2]
  rfl

/-- At any other tile it is computed from what the tile before left. -/
theorem out_later (c : Dev nD) (i : grid0.Coords) (a2 : Memref sig .tc .vmem S1x128x4096 .f32) (h2 : a2.IsWhole)
    (a3 : Memref sig .tc .vmem S1x128x4096 .f32) (h3 : a3.IsWhole) (a4 : Memref sig .tc .vmem S1x4096x512 .f32) (h4 : a4.IsWhole)
    (a5 : Memref sig .tc .vmem S128x4096 .bf16) (h5 : a5.IsWhole) (a6 : Memref sig .tc .vmem S128x4096 .bf16) (h6 : a6.IsWhole)
    (a7 : Memref sig .tc .vmem S4096x1 .f32) (h7 : a7.IsWhole) (hc : ¬cond0_0 i)
    (x0 x1 : Vec F S1x128x4096 .f32) (xs0 xs1 : Vec F S128x4096 .bf16) (xs2 : Vec F S4096x1 .f32) :
    out0_B_2 c i a2 h2 a3 h3 a4 h4 a5 h5 a6 h6 a7 h7 hc x0 x1 xs0 xs1 xs2 = k0_pay5 (ytile i x1) xs0 xs1 xs2 := by
  unfold out0_B_2
  rw [View.read_writes_eq_canon _ _ _ (cover0_B_2 c i a2 h2 a3 h3 a4 h4 a5 h5 a6 h6 a7 h7 hc x0 x1 xs0 xs1 xs2)]
  unfold kernelRun0_B
  dsimp only
  rw [View.canon_unit_zero hz3]
  simp only [View.readAt_eq_ld, h3.read_unread, h5.read_unread, h6.read_unread, h7.read_unread,
    View.ld_unit_zero (S := S128x4096) hz2, View.ld_unit_zero (S := S4096x1) hz2]

end Cert.KernelIdeal.NlmPieces

end
-- ==== Proof.KBlocks.lean ====
/-
  What the run leaves point by point.  The grid's 32 points are (batch b, column tile j) with b = t / 8 and j = t % 8,
  taken in order; both inputs' blocks at a point are the batch's whole [1, 128, 4096] slab, so they do not move within a
  batch.  The three arrays the body keeps are written at a batch's first tile and read at the other seven, hence after
  EVERY point they hold the leading part, the residual part and the diagonal sums of the point's own blocks, and the
  output tile at every point is the one function of the point's blocks.
-/
import proofs.«401349_j18116172055210_3_alg».proof.Proof.Gen.KernelIdeal.Value
import proofs.«401349_j18116172055210_3_alg».proof.Proof.KPieces

set_option maxRecDepth 16384

noncomputable section

open Idealize.ShloMosaic Idealize.ShloMosaic.TcCoe Idealize.SL.Sem
open Idealize.ShloMosaic.Pipeline (Dat)

namespace Cert.KernelIdeal.NlmBlocks

open Cert.KernelIdeal Cert.KernelIdeal.Gen Cert.KernelIdeal.NlmPieces

variable {F : FTy → Type} [FloatOps F]
variable (m : (ℓ : Loc nD τ sig) → Buf (Elt F) ℓ)

/-- The first input's block at a point, the second's, and the two reshaped arrays as the region finds them. -/
abbrev xblk (c : Dev nD) (t : Fin cfg0.N) : Vec F S1x128x4096 .f32 := iblk m c 0 t
abbrev yblk (c : Dev nD) (t : Fin cfg0.N) : Vec F S1x128x4096 .f32 := iblk m c 1 t
abbrev xarr (c : Dev nD) : Vec F S4x128x4096 .f32 := V m c main_v0
abbrev yarr (c : Dev nD) : Vec F S4x128x4096 .f32 := V m c main_v1

/-- The printed index maps, decided over the grid: the inputs' blocks are indexed by the batch t / 8 alone, the output's
    by the batch and the tile t % 8; and the body's second coordinate is the tile. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ ((grid0.coords t) 1).val = t.val % 8 :=
  (by decide +kernel : ∀ t : Fin grid0.N, _)

theorem batch_lt (t : Fin cfg0.N) : t.val / 8 < 4 := by
  have h := t.isLt; have hN : cfg0.N = 32 := N_0; omega

/-- The first input's block at a point is its batch's slab of the reshaped array. -/
theorem xblk_apply (c : Dev nD) (t : Fin cfg0.N) (y : S1x128x4096.Idx) :
    xblk m c t y = xarr m c (fun a => match a with
      | ⟨0, _⟩ => ⟨t.val / 8, batch_lt t⟩ | ⟨1, _⟩ => y 1 | ⟨2, _⟩ => y 2) := by
  obtain ⟨e0, e1, e2, -⟩ := idx_facts t
  unfold xblk iblk
  rw [View.read_apply]
  show V m c main_v0 _ = V m c main_v0 _
  congr 1
  funext a
  apply Fin.ext
  match a with
  | ⟨0, _⟩ => show win0_0.index t (0 : Fin 3) * 1 + 1 * (y 0).val = t.val / 8; have h : (y 0).val < 1 := (y 0).isLt; omega
  | ⟨1, _⟩ => show win0_0.index t (1 : Fin 3) * 128 + 1 * (y 1).val = (y 1).val; omega
  | ⟨2, _⟩ => show win0_0.index t (2 : Fin 3) * 4096 + 1 * (y 2).val = (y 2).val; omega

/-- The second input's block likewise. -/
theorem yblk_apply (c : Dev nD) (t : Fin cfg0.N) (y : S1x128x4096.Idx) :
    yblk m c t y = yarr m c (fun a => match a with
      | ⟨0, _⟩ => ⟨t.val / 8, batch_lt t⟩ | ⟨1, _⟩ => y 1 | ⟨2, _⟩ => y 2) := by
  obtain ⟨-, -, -, e0, e1, e2, -⟩ := idx_facts t
  unfold yblk iblk
  rw [View.read_apply]
  show V m c main_v1 _ = V m c main_v1 _
  congr 1
  funext a
  apply Fin.ext
  match a with
  | ⟨0, _⟩ => show win0_1.index t (0 : Fin 3) * 1 + 1 * (y 0).val = t.val / 8; have h : (y 0).val < 1 := (y 0).isLt; omega
  | ⟨1, _⟩ => show win0_1.index t (1 : Fin 3) * 128 + 1 * (y 1).val = (y 1).val; omega
  | ⟨2, _⟩ => show win0_1.index t (2 : Fin 3) * 4096 + 1 * (y 2).val = (y 2).val; omega

/-- Two points of one batch see the same blocks. -/
theorem xblk_congr (c : Dev nD) (t t' : Fin cfg0.N) (h : t.val / 8 = t'.val / 8) : xblk m c t = xblk m c t' := by
  funext y
  rw [xblk_apply, xblk_apply]
  congr 1
  funext a
  match a with
  | ⟨0, _⟩ => exact Fin.ext h
  | ⟨1, _⟩ => rfl
  | ⟨2, _⟩ => rfl
theorem yblk_congr (c : Dev nD) (t t' : Fin cfg0.N) (h : t.val / 8 = t'.val / 8) : yblk m c t = yblk m c t' := by
  funext y
  rw [yblk_apply, yblk_apply]
  congr 1
  funext a
  match a with
  | ⟨0, _⟩ => exact Fin.ext h
  | ⟨1, _⟩ => rfl
  | ⟨2, _⟩ => rfl

/-- THE KEPT ARRAYS AFTER EVERY POINT: the leading part, the residual part and the diagonal sums of the point's own
    blocks — written at a batch's first tile, carried unchanged through the batch's other tiles, whose blocks are the same. -/
theorem kept_eq (c : Dev nD) : ∀ (n : ℕ) (hn : n < cfg0.N),
    (outsAt0 m c n hn).2.1 = k0_pay2 (xblk m c ⟨n, hn⟩)
    ∧ (outsAt0 m c n hn).2.2.1 = k0_pay3 (xblk m c ⟨n, hn⟩)
    ∧ (outsAt0 m c n hn).2.2.2 = k0_pay4 (xblk m c ⟨n, hn⟩) (yblk m c ⟨n, hn⟩)
  | 0, hn => by
    rw [outsAt0_A m c ⟨0, hn⟩ rfl]
    dsimp only
    exact ⟨keptLead_first .., keptResid_first .., keptDiag_first ..⟩
  | n + 1, hn => by
    by_cases h0 : (n + 1) % 8 = 0
    · rw [outsAt0_A m c ⟨n + 1, hn⟩ h0]
      dsimp only
      exact ⟨keptLead_first .., keptResid_first .., keptDiag_first ..⟩
    · have ih := kept_eq c n (Nat.lt_of_succ_lt hn)
      have hb : (⟨n + 1, hn⟩ : Fin cfg0.N).val / 8 = (⟨n, Nat.lt_of_succ_lt hn⟩ : Fin cfg0.N).val / 8 := by
        show (n + 1) / 8 = n / 8; omega
      rw [outsAt0_B m c ⟨n + 1, hn⟩ h0]
      dsimp only
      unfold sout0_B_0 sout0_B_1 sout0_B_2
      rw [xblk_congr m c _ _ hb, yblk_congr m c _ _ hb]
      exact ih

/-- THE OUTPUT TILE AT EVERY POINT: the body's one function of the second block's tile and the three kept arrays of the
    point's own blocks. -/
theorem out_eq (c : Dev nD) (t : Fin cfg0.N) :
    (outsAt0 m c t.val t.isLt).1
      = k0_pay5 (ytile (grid0.coords t) (yblk m c t)) (k0_pay2 (xblk m c t)) (k0_pay3 (xblk m c t))
          (k0_pay4 (xblk m c t) (yblk m c t)) := by
  by_cases h0 : t.val % 8 = 0
  · rw [outsAt0_A m c t h0]
    dsimp only
    exact out_first ..
  · have hpos : 0 < t.val := by omega
    have hlt : t.val - 1 < cfg0.N := Nat.lt_of_le_of_lt (Nat.sub_le _ _) t.isLt
    have hb : t.val / 8 = (⟨t.val - 1, hlt⟩ : Fin cfg0.N).val / 8 := by
      show t.val / 8 = (t.val - 1) / 8; omega
    obtain ⟨k0, k1, k2⟩ := kept_eq m c (t.val - 1) hlt
    rw [outsAt0_B m c t h0]
    dsimp only
    rw [out_later, k0, k1, k2, ← xblk_congr m c t _ hb, ← yblk_congr m c t _ hb]

end Cert.KernelIdeal.NlmBlocks

end
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.KPayload.lean ====
/-
  The body's arithmetic read at one element, over the extended reals (every change of float format is the identity).

  From a block x0 of the first input and a block x1 of the second (both [1, 128, 4096]: one batch, channel k, position):
    kept leading part   L[k, p] = x0[k, p]
    kept residual part  R[k, p] = x0[k, p] − x0[k, p]
    kept diagonal       d[p]    = Σ_k x0[k, p] · x1[k, p]
  and from a 512-column tile y of x1, the tile's leading part y and residual y − y:
    score  s[p, q] = (Σ_k L[k, p]·y[k, q] + Σ_k L[k, p]·(y[k, q] − y[k, q]) + Σ_k R[k, p]·y[k, q]) − ½ · d[p]
    column maximum from −∞ over the 4096 rows, weights exp (s − max), result weight / column sum of weights.
-/
import proofs.«401349_j18116172055210_3_alg».proof.Proof.Gen.KernelIdeal.Skeleton
import proofs.«401349_j18116172055210_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NlmPayload

open Cert.KernelIdeal Cert.KernelIdeal.Gen Idealize.ShloMosaic Idealize.ShloMosaic.ValueIdx

/-! ## The three kept arrays at an element -/

/-- The block re-laid as [128, 4096] reads the block's entry. -/
theorem relaid_apply (x0 : FVec Ideal S1x128x4096 .f32) (k : Fin 128) (p : Fin 4096) :
    k0_pay1 (F := Ideal) x0 (ix2 k p) = x0 (ix3 (0 : Fin 1) k p) := by
  unfold k0_pay1
  exact shapeCast_1ab_ab_apply x0 _ k p

/-- The kept leading part is the block's entry. -/
theorem lead_apply (x0 : FVec Ideal S1x128x4096 .f32) (k : Fin 128) (p : Fin 4096) :
    k0_pay2 (F := Ideal) x0 (ix2 k p) = x0 (ix3 (0 : Fin 1) k p) := by
  unfold k0_pay2
  rw [shapeCast_self]
  exact relaid_apply x0 k p

/-- The kept residual part is the block's entry minus itself. -/
theorem resid_apply (x0 : FVec Ideal S1x128x4096 .f32) (k : Fin 128) (p : Fin 4096) :
    k0_pay3 (F := Ideal) x0 (ix2 k p) = x0 (ix3 (0 : Fin 1) k p) - x0 (ix3 (0 : Fin 1) k p) := by
  unfold k0_pay3
  rw [shapeCast_self]
  show k0_pay1 (F := Ideal) x0 (ix2 k p) - k0_pay1 (F := Ideal) x0 (ix2 k p) = _
  rw [relaid_apply]

/-- A sum over the channel axis of a [128, 4096] array, read at a position. -/
theorem chanSum_apply (v : FVec Ideal S128x4096 .f32) (h : S128x4096.Reduces [0] S4096)
    (hφ : FKind.Formats .f32) (hacc : (0x00000000#32 : BitVec 32) = 0x00000000#32) (p : Fin 4096) :
    multiReduction (F := Ideal) .add [0] S4096 v 0x00000000#32 h hφ hacc (ix1 p) = ∑ k : Fin 128, v (ix2 k p) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The kept diagonal is the channel sum of the two blocks' products at the position. -/
theorem diag_apply (x0 x1 : FVec Ideal S1x128x4096 .f32) (p : Fin 4096) (u : Fin 1) :
    k0_pay4 (F := Ideal) x0 x1 (ix2 p u) = ∑ k : Fin 128, x0 (ix3 (0 : Fin 1) k p) * x1 (ix3 (0 : Fin 1) k p) := by
  unfold k0_pay4
  rw [shapeCast_self]
  refine (transpose_ix2_apply _ _ p u).trans ?_
  refine (shapeCast_a_1a_apply _ _ u p).trans ?_
  refine (chanSum_apply _ _ _ _ p).trans ?_
  refine Finset.sum_congr rfl fun k _ => ?_
  show k0_pay1 (F := Ideal) x0 (ix2 k p) * shapeCast S128x4096 x1 shapeCasts_S1x128x4096_S128x4096 (ix2 k p) = _
  rw [relaid_apply, shapeCast_1ab_ab_apply]

/-! ## The matrix product at an element -/

theorem lhs_axis0 (i : S4096x512.Idx) (q : dot_S128x4096_S128x512_S4096x512_0_0_1_1_n_n.contr.Idx) :
    (dot_S128x4096_S128x512_S4096x512_0_0_1_1_n_n.lhsIdx i q 0).val = (q ⟨0, by decide⟩).val :=
  dot_S128x4096_S128x512_S4096x512_0_0_1_1_n_n.lhsIdx_val_of_single rfl i q
theorem lhs_axis1 (i : S4096x512.Idx) (q : dot_S128x4096_S128x512_S4096x512_0_0_1_1_n_n.contr.Idx) :
    (dot_S128x4096_S128x512_S4096x512_0_0_1_1_n_n.lhsIdx i q 1).val = (i 0).val := by
  unfold DotDims.lhsIdx
  rw [dif_neg (show ¬(1 : Fin S128x4096.rank) ∈ dot_S128x4096_S128x512_S4096x512_0_0_1_1_n_n.lhsBatch by decide), dif_pos (show (1 : Fin S128x4096.rank) ∈ dot_S128x4096_S128x512_S4096x512_0_0_1_1_n_n.lhsNonContracting by decide)]
  rfl
theorem rhs_axis0 (i : S4096x512.Idx) (q : dot_S128x4096_S128x512_S4096x512_0_0_1_1_n_n.contr.Idx) :
    (dot_S128x4096_S128x512_S4096x512_0_0_1_1_n_n.rhsIdx i q 0).val = (q ⟨0, by decide⟩).val :=
  dot_S128x4096_S128x512_S4096x512_0_0_1_1_n_n.rhsIdx_val_of_single rfl i q
theorem rhs_axis1 (i : S4096x512.Idx) (q : dot_S128x4096_S128x512_S4096x512_0_0_1_1_n_n.contr.Idx) :
    (dot_S128x4096_S128x512_S4096x512_0_0_1_1_n_n.rhsIdx i q 1).val = (i 1).val := by
  unfold DotDims.rhsIdx
  rw [dif_neg (show ¬(1 : Fin S128x512.rank) ∈ dot_S128x4096_S128x512_S4096x512_0_0_1_1_n_n.rhsBatch by decide), dif_pos (show (1 : Fin S128x512.rank) ∈ dot_S128x4096_S128x512_S4096x512_0_0_1_1_n_n.rhsNonContracting by decide)]
  rfl

/-- The product of a [128, 4096] and a [128, 512] array contracted over their first axes, into a zero accumulator:
    at (p, q) the sum over the channel k of left[k, p] · right[k, q]. -/
theorem product_apply (L : FVec Ideal S128x4096 .bf16) (R : FVec Ideal S128x512 .bf16) (p : Fin 4096) (q : Fin 512) :
    matmul (F := Ideal) dot_S128x4096_S128x512_S4096x512_0_0_1_1_n_n none L R (constant (F := Ideal) S4096x512 .f32 0x00000000#32) (ix2 p q)
      = ∑ k : Fin 128, L (ix2 k p) * R (ix2 k q) := by
  simp only [matmul]
  rw [Ideal.matmul_constant_zero_apply, ← Equiv.sum_comp (ValueIdx.contrEquiv1 dot_S128x4096_S128x512_S4096x512_0_0_1_1_n_n 128 rfl rfl).symm]
  refine Finset.sum_congr rfl fun k _ => ?_
  have hk := ValueIdx.contrEquiv1_symm_val dot_S128x4096_S128x512_S4096x512_0_0_1_1_n_n 128 rfl rfl k
  have el : dot_S128x4096_S128x512_S4096x512_0_0_1_1_n_n.lhsIdx (ix2 p q) ((ValueIdx.contrEquiv1 dot_S128x4096_S128x512_S4096x512_0_0_1_1_n_n 128 rfl rfl).symm k) = ix2 k p := funext fun a => Fin.ext (by
    match a with
    | ⟨0, _⟩ => exact (lhs_axis0 _ _).trans hk
    | ⟨1, _⟩ => exact lhs_axis1 _ _)
  have er : dot_S128x4096_S128x512_S4096x512_0_0_1_1_n_n.rhsIdx (ix2 p q) ((ValueIdx.contrEquiv1 dot_S128x4096_S128x512_S4096x512_0_0_1_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## Column reductions of a [4096, 512] array -/

/-- The sum over the rows, read at a column. -/
theorem rowSum_apply (v : FVec Ideal S4096x512 .f32) (h : S4096x512.Reduces [0] S512)
    (hφ : FKind.Formats .f32) (hacc : (0x00000000#32 : BitVec 32) = 0x00000000#32) (q : Fin 512) :
    multiReduction (F := Ideal) .add [0] S512 v 0x00000000#32 h hφ hacc (ix1 q) = ∑ p : Fin 4096, v (ix2 p q) := by
  refine (Ideal.multiReduction_add_single v 0x00000000#32 h hφ hacc (ix1 q)).trans ?_
  refine Finset.sum_congr rfl fun k _ => congrArg v ?_
  funext a
  match a with
  | ⟨0, _⟩ => rfl
  | ⟨1, _⟩ => rfl

/-- The f32 word of −∞ denotes the least extended real. -/
theorem negInf_eq_bot : Ideal.ofBits .f32 0xFF800000#32 = ⊥ := by simp [Ideal.ofBits, Ideal.ieee]

/-- The maximum over the rows from −∞, read at a column. -/
theorem rowMax_apply (v : FVec Ideal S4096x512 .f32) (h : S4096x512.Reduces [0] S512)
    (hφ : FKind.Formats .f32) (hacc : (0xFF800000#32 : BitVec 32) = 0xFF800000#32) (q : Fin 512) :
    multiReduction (F := Ideal) .maximumf [0] S512 v 0xFF800000#32 h hφ hacc (ix1 q)
      = (Finset.univ : Finset (Fin 4096)).fold max ⊥ (fun p => v (ix2 p q)) := by
  refine (Ideal.multiReduction_maximumf_single v 0xFF800000#32 h hφ hacc (ix1 q)).trans ?_
  rw [Ideal.ofBits_def, negInf_eq_bot]
  refine congrArg (fun f => (Finset.univ : Finset (Fin 4096)).fold max ⊥ f) (funext fun k => congrArg v ?_)
  funext a
  match a with
  | ⟨0, _⟩ => rfl
  | ⟨1, _⟩ => rfl

/-! ## The output tile at an element -/

/-- The score the body forms at row p and tile column q, from the tile y and the three kept arrays. -/
def tileScore (y : FVec Ideal S1x128x512 .f32) (L R : FVec Ideal S128x4096 .bf16) (d : FVec Ideal S4096x1 .f32)
    (p : Fin 4096) (q : Fin 512) : EReal :=
  ((∑ k : Fin 128, L (ix2 k p) * y (ix3 (0 : Fin 1) k q))
      + (∑ k : Fin 128, L (ix2 k p) * (y (ix3 (0 : Fin 1) k q) - y (ix3 (0 : Fin 1) k q)))
      + (∑ k : Fin 128, R (ix2 k p) * y (ix3 (0 : Fin 1) k q)))
    - Ideal.ofBits .f32 0x3F000000#32 * d (ix2 p (0 : Fin 1))

/-- The score array the body forms (before the softmax) read at (p, q). -/
theorem score_apply (y : FVec Ideal S1x128x512 .f32) (L R : FVec Ideal S128x4096 .bf16) (d : FVec Ideal S4096x1 .f32)
    (p : Fin 4096) (q : Fin 512) :
    subf (F := Ideal)
        (addf (addf
          (matmul (F := Ideal) dot_S128x4096_S128x512_S4096x512_0_0_1_1_n_n none L
            (truncf .bf16 (shapeCast S128x512 y shapeCasts_S1x128x512_S128x512) bitsLt_bf16_f32) (constant (F := Ideal) S4096x512 .f32 0x00000000#32))
          (matmul (F := Ideal) dot_S128x4096_S128x512_S4096x512_0_0_1_1_n_n none L
            (truncf .bf16 (subf (shapeCast S128x512 y shapeCasts_S1x128x512_S128x512) (shapeCast S128x512 y shapeCasts_S1x128x512_S128x512)) bitsLt_bf16_f32) (constant (F := Ideal) S4096x512 .f32 0x00000000#32)))
          (matmul (F := Ideal) dot_S128x4096_S128x512_S4096x512_0_0_1_1_n_n none R
            (truncf .bf16 (shapeCast S128x512 y shapeCasts_S1x128x512_S128x512) bitsLt_bf16_f32) (constant (F := Ideal) S4096x512 .f32 0x00000000#32)))
        (broadcastTo S4096x512 (mulf (broadcast S4096x1 (Scalar.ofBits (F := Ideal) .f32 0x3F000000#32)) d) broadcasts_S4096x1_S4096x512)
        (ix2 p q)
      = tileScore y L R d p q := by
  show (_ + _ + _ : EReal) - _ = _
  rw [product_apply, product_apply, product_apply, LibColumn.broadcastTo_a1_ab_apply]
  unfold tileScore
  have hy : ∀ k : Fin 128, shapeCast S128x512 y shapeCasts_S1x128x512_S128x512 (ix2 k q) = y (ix3 (0 : Fin 1) k q) :=
    fun k => shapeCast_1ab_ab_apply y _ k q
  congr 1
  · congr 1
    · congr 1
      · exact Finset.sum_congr rfl fun k _ => congrArg (L (ix2 k p) * ·) (hy k)
      · exact Finset.sum_congr rfl fun k _ => congrArg (L (ix2 k p) * ·) (by
          show shapeCast S128x512 y shapeCasts_S1x128x512_S128x512 (ix2 k q) - shapeCast S128x512 y shapeCasts_S1x128x512_S128x512 (ix2 k q) = _
          rw [hy k])
    · exact Finset.sum_congr rfl fun k _ => congrArg (R (ix2 k p) * ·) (hy k)

/-- THE OUTPUT TILE AT AN ELEMENT: the softmax over the rows of the tile's scores. -/
theorem tile_apply (y : FVec Ideal S1x128x512 .f32) (L R : FVec Ideal S128x4096 .bf16) (d : FVec Ideal S4096x1 .f32)
    (u : Fin 1) (p : Fin 4096) (q : Fin 512) :
    k0_pay5 (F := Ideal) y L R d (ix3 u p q)
      = Ideal.div (Ideal.exp (tileScore y L R d p q - (Finset.univ : Finset (Fin 4096)).fold max ⊥ (fun p' => tileScore y L R d p' q)))
          (∑ p' : Fin 4096, Ideal.exp (tileScore y L R d p' q - (Finset.univ : Finset (Fin 4096)).fold max ⊥ (fun p'' => tileScore y L R d p'' q))) := by
  unfold k0_pay5
  refine (shapeCast_ab_1ab_apply _ _ u p q).trans ?_
  show Ideal.div (Ideal.exp (_ - _)) _ = _
  have hmax : ∀ p' : Fin 4096, broadcastTo S4096x512 (shapeCast S1x512 (multiReduction (F := Ideal) .maximumf [0] S512 _ 0xFF800000#32 reduces_S4096x512_S512 (.inl rfl) rfl) shapeCasts_S512_S1x512) broadcasts_S1x512_S4096x512 (ix2 p' q)
      = (Finset.univ : Finset (Fin 4096)).fold max ⊥ (fun p'' => tileScore y L R d p'' q) := fun p' => by
    refine (broadcastTo_1b_ab_apply _ _ p' q).trans ?_
    refine (shapeCast_a_1a_apply _ _ 0 q).trans ?_
    refine (rowMax_apply _ _ _ _ q).trans ?_
    exact congrArg (fun f => (Finset.univ : Finset (Fin 4096)).fold max ⊥ f) (funext fun p'' => score_apply y L R d p'' q)
  refine congrArg₂ Ideal.div (congrArg Ideal.exp (congrArg₂ (· - ·) (score_apply y L R d p q) (hmax p))) ?_
  refine (broadcastTo_1b_ab_apply _ _ p q).trans ?_
  refine (shapeCast_a_1a_apply _ _ 0 q).trans ?_
  refine (rowSum_apply _ _ _ _ q).trans ?_
  refine Finset.sum_congr rfl fun p' _ => ?_
  show Ideal.exp (_ - _) = _
  exact congrArg Ideal.exp (congrArg₂ (· - ·) (score_apply y L R d p' q) (hmax p'))

end Cert.KernelIdeal.NlmPayload

end
-- ==== Proof.Spec.lean ====
/-
  The two closed forms the certificate compares, as functions of the reshaped inputs X, Y : [4, 128, 4096]
  (batch b, channel k, position), over the extended reals.

  Affinity  A[b, p, q] = Σ_k X[b, k, p] · Y[b, k, q];  its diagonal  A[b, p, p].

  KERNEL FORM.  The kernel splits each operand into a leading part and a residual (x and x − x once roundings are
  the identity), adds the three leading products, subtracts half the diagonal entry of the ROW only, and takes a
  softmax over the rows p of every column q:
      sK[b, p, q] = (Σ_k X·Y + Σ_k X·(Y − Y) + Σ_k (X − X)·Y) − ½ · A[b, p, p].
  REFERENCE FORM.  The reference subtracts half the diagonal entry of the row AND of the column before the same
  column softmax:
      sR[b, p, q] = (A[b, p, q] − ½ · A[b, p, p]) − ½ · A[b, q, q].
  In both, the column maximum is the running maximum from −∞ over the 4096 rows, the weights are exp (s − max),
  and the result is weight / (sum of the column's weights).
-/
import Idealize.ShloMosaic.PureOps.Ideal
import Idealize.ShloMosaic.Lib.ValueIdx

noncomputable section

namespace Cert.Nlm

open Idealize.ShloMosaic Idealize.ShloMosaic.ValueIdx

/-- The reshaped inputs' shape: batch, channel, position. -/
abbrev SIn : Shape := ⟨3, ![4, 128, 4096]⟩
/-- The result's shape: batch, row position p, column position q. -/
abbrev SOut : Shape := ⟨3, ![4, 4096, 4096]⟩

/-- The literal one half both programs scale the diagonal by, as the extended real its f32 word denotes. -/
def half : EReal := Ideal.ofBits .f32 0x3F000000#32

/-- The affinity A[b, p, q] = Σ_k X[b, k, p] · Y[b, k, q]. -/
def aff (X Y : SIn.Idx → EReal) (b : Fin 4) (p q : Fin 4096) : EReal :=
  ∑ k : Fin 128, X (ix3 b k p) * Y (ix3 b k q)

/-! ## The kernel's form -/

/-- The kernel's score: three partial products (leading·leading, leading·residual, residual·leading) minus half the
    row's diagonal entry. -/
def scoreK (X Y : SIn.Idx → EReal) (b : Fin 4) (p q : Fin 4096) : EReal :=
  ((∑ k : Fin 128, X (ix3 b k p) * Y (ix3 b k q))
      + (∑ k : Fin 128, X (ix3 b k p) * (Y (ix3 b k q) - Y (ix3 b k q)))
      + (∑ k : Fin 128, (X (ix3 b k p) - X (ix3 b k p)) * Y (ix3 b k q)))
    - half * (∑ k : Fin 128, X (ix3 b k p) * Y (ix3 b k p))

/-- The running maximum from −∞ of a column's scores over the rows. -/
def colMaxK (X Y : SIn.Idx → EReal) (b : Fin 4) (q : Fin 4096) : EReal :=
  (Finset.univ : Finset (Fin 4096)).fold max ⊥ (fun p => scoreK X Y b p q)

/-- A softmax weight: exp (score − column maximum). -/
def weightK (X Y : SIn.Idx → EReal) (b : Fin 4) (p q : Fin 4096) : EReal :=
  Ideal.exp (scoreK X Y b p q - colMaxK X Y b q)

/-- The kernel's result: weight over the column's sum of weights. -/
def GK (X Y : SIn.Idx → EReal) : SOut.Idx → EReal := fun i =>
  Ideal.div (weightK X Y (i 0) (i 1) (i 2)) (∑ p : Fin 4096, weightK X Y (i 0) p (i 2))

/-! ## The reference's form -/

/-- The reference's score: affinity minus half the row's and half the column's diagonal entry. -/
def scoreR (X Y : SIn.Idx → EReal) (b : Fin 4) (p q : Fin 4096) : EReal :=
  (aff X Y b p q - half * aff X Y b p p) - half * aff X Y b q q

/-- The running maximum from −∞ of a column's scores over the rows. -/
def colMaxR (X Y : SIn.Idx → EReal) (b : Fin 4) (q : Fin 4096) : EReal :=
  (Finset.univ : Finset (Fin 4096)).fold max ⊥ (fun p => scoreR X Y b p q)

/-- A softmax weight: exp (score − column maximum). -/
def weightR (X Y : SIn.Idx → EReal) (b : Fin 4) (p q : Fin 4096) : EReal :=
  Ideal.exp (scoreR X Y b p q - colMaxR X Y b q)

/-- The reference's result: weight over the column's sum of weights. -/
def GR (X Y : SIn.Idx → EReal) : SOut.Idx → EReal := fun i =>
  Ideal.div (weightR X Y (i 0) (i 1) (i 2)) (∑ p : Fin 4096, weightR X Y (i 0) p (i 2))

end Cert.Nlm

end
-- ==== Proof.KValue.lean ====
/-
  The kernel's result array, over the extended reals: the kernel's closed form of the two reshaped inputs.

  Point t = 8·b + j writes back the tile [b, all rows, columns 512·j … 512·j + 511]; the body's tile function, read at
  (p, q') with the blocks' entries written as entries of the reshaped arrays X, Y at batch b, is the kernel's closed form
  at (b, p, 512·j + q').  The 32 tiles cover the array: index (b, p, q) lies in the tile of point 8·b + q / 512.
-/
import proofs.«401349_j18116172055210_3_alg».proof.Proof.Gen.KernelIdeal.Value
import proofs.«401349_j18116172055210_3_alg».proof.Proof.KBlocks
import proofs.«401349_j18116172055210_3_alg».proof.Proof.KPayload
import proofs.«401349_j18116172055210_3_alg».proof.Proof.Spec

set_option maxRecDepth 16384

noncomputable section

open Idealize.ShloMosaic Idealize.ShloMosaic.TcCoe Idealize.SL.Sem
open Idealize.ShloMosaic.Pipeline (Dat)

namespace Cert.KernelIdeal.NlmValue

open Cert.KernelIdeal Cert.KernelIdeal.Gen Cert.KernelIdeal.Value Cert.KernelIdeal.NlmPieces Cert.KernelIdeal.NlmBlocks
  Cert.KernelIdeal.NlmPayload Cert.Nlm Idealize.ShloMosaic.ValueIdx

/-! ## The tile function is the closed form -/

/-- The tile of the second block read by the point with second coordinate j: columns from 512·j. -/
theorem ytile_apply (i : grid0.Coords) (jq : Fin 8) (hi : (i 1).val = jq.val) (x1 : FVec Ideal S1x128x4096 .f32)
    (u : Fin 1) (k : Fin 128) (q : Fin 512) :
    ytile (F := Ideal) i x1 (ix3 u k q)
      = x1 (ix3 (0 : Fin 1) k ⟨512 * jq.val + q.val, by have := jq.isLt; have := q.isLt; omega⟩) := by
  unfold ytile
  show x1 ((Rect.unit (s := S1x128x4096) (k0_off1 i) S1x128x512.size (k0_off1_inb i)).emb (ix3 u k q)) = _
  congr 1
  funext a
  apply Fin.ext
  have ho := k0_off1_eq i
  match a with
  | ⟨0, _⟩ => show k0_off1 i 0 + 1 * u.val = 0; rw [ho]; have := u.isLt; show 0 + 1 * u.val = 0; omega
  | ⟨1, _⟩ => show k0_off1 i 1 + 1 * k.val = k.val; rw [ho]; show 0 + 1 * k.val = k.val; omega
  | ⟨2, _⟩ => show k0_off1 i 2 + 1 * q.val = 512 * jq.val + q.val; rw [ho]; show 512 * (i 1).val + 1 * q.val = _; rw [hi]; omega

/-- The body's score at (p, q') is the closed form's score at (b, p, 512·j + q'), once the blocks' entries are the
    arrays' entries at batch b. -/
theorem tileScore_eq (X Y : SIn.Idx → EReal) (b : Fin 4) (jq : Fin 8) (i : grid0.Coords) (hi : (i 1).val = jq.val)
    (x0 x1 : FVec Ideal S1x128x4096 .f32)
    (hx0 : ∀ (k : Fin 128) (p : Fin 4096), x0 (ix3 (0 : Fin 1) k p) = X (ix3 b k p))
    (hx1 : ∀ (k : Fin 128) (p : Fin 4096), x1 (ix3 (0 : Fin 1) k p) = Y (ix3 b k p))
    (p : Fin 4096) (q : Fin 512) :
    tileScore (ytile (F := Ideal) i x1) (k0_pay2 (F := Ideal) x0) (k0_pay3 (F := Ideal) x0) (k0_pay4 (F := Ideal) x0 x1) p q
      = scoreK X Y b p ⟨512 * jq.val + q.val, by have := jq.isLt; have := q.isLt; omega⟩ := by
  unfold tileScore scoreK half
  simp only [lead_apply, resid_apply, diag_apply, ytile_apply i jq hi x1, hx0, hx1]

/-- THE TILE FUNCTION AT AN ELEMENT is the kernel's closed form there. -/
theorem tile_eq_GK (X Y : SIn.Idx → EReal) (b : Fin 4) (jq : Fin 8) (i : grid0.Coords) (hi : (i 1).val = jq.val)
    (x0 x1 : FVec Ideal S1x128x4096 .f32)
    (hx0 : ∀ (k : Fin 128) (p : Fin 4096), x0 (ix3 (0 : Fin 1) k p) = X (ix3 b k p))
    (hx1 : ∀ (k : Fin 128) (p : Fin 4096), x1 (ix3 (0 : Fin 1) k p) = Y (ix3 b k p))
    (u : Fin 1) (p : Fin 4096) (q : Fin 512) :
    k0_pay5 (F := Ideal) (ytile (F := Ideal) i x1) (k0_pay2 (F := Ideal) x0) (k0_pay3 (F := Ideal) x0) (k0_pay4 (F := Ideal) x0 x1) (ix3 u p q)
      = GK X Y (ix3 b p ⟨512 * jq.val + q.val, by have := jq.isLt; have := q.isLt; omega⟩) := by
  rw [tile_apply]
  simp only [tileScore_eq X Y b jq i hi x0 x1 hx0 hx1]
  rfl

/-! ## The array after the run -/

variable (m : (ℓ : Loc nD τ sig) → Buf (Elt Ideal) ℓ) (ρ : Dev nD → PrngReg)

/-- WHAT POINT t WRITES BACK is block t of the closed form of the reshaped arrays as the region finds them. -/
theorem flushed_eq (c : Dev nD) (t : Fin cfg0.N) :
    (dats m 0 c).flushed 2 t = ((cfg0.win 2).blk t).view.read (Elt Ideal) (GK (xarr m c) (yarr m c)) := by
  rw [Value.flushed2, out_eq m c t]
  obtain ⟨-, -, -, -, -, -, e0, e1, e2, ec⟩ := idx_facts t
  have hb := batch_lt t
  have hq : t.val % 8 < 8 := Nat.mod_lt _ (by decide)
  funext j
  have key := tile_eq_GK (xarr m c) (yarr m c) ⟨t.val / 8, hb⟩ ⟨t.val % 8, hq⟩ (grid0.coords t) ec (xblk m c t) (yblk m c t)
    (fun k p => by rw [xblk_apply]; rfl) (fun k p => by rw [yblk_apply]; rfl) (j 0) (j 1) (j 2)
  rw [View.read_apply]
  refine (Eq.trans ?_ key).trans ?_
  · exact congrArg _ (eq_ix3 j)
  · refine congrArg (GK (xarr m c) (yarr m c)) ?_
    funext a
    apply Fin.ext
    match a with
    | ⟨0, _⟩ => show t.val / 8 = win0_2.index t (0 : Fin 3) * 1 + 1 * (j 0).val; have h : (j 0).val < 1 := (j 0).isLt; omega
    | ⟨1, _⟩ => show (j 1).val = win0_2.index t (1 : Fin 3) * 4096 + 1 * (j 1).val; omega
    | ⟨2, _⟩ => show 512 * (t.val % 8) + (j 2).val = win0_2.index t (2 : Fin 3) * 512 + 1 * (j 2).val; omega

/-- An index of the array is in point t's block iff each coordinate is in the block's range on its axis. -/
theorem mem_blk (t : Fin cfg0.N) (i : S4x4096x4096.Idx) :
    i ∈ ((cfg0.win 2).blk t).view.set ↔ ∀ a : Fin 3, win0_2.index t a * S1x4096x512.size a ≤ (i a).val ∧ (i a).val < win0_2.index t a * S1x4096x512.size a + S1x4096x512.size a := by
  show i ∈ ((View.whole main_v2).slice (win0_2.rect t)).set ↔ _
  rw [View.set_slice_whole, Rect.mem_set_unit]
  exact Iff.rfl

/-- The tiles cover the array: (b, p, q) lies in the tile of point 8·b + q / 512. -/
theorem cover (i : S4x4096x4096.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 4096 := (i 2).isLt
  have hN : cfg0.N = 32 := N_0
  refine ⟨⟨8 * (i 0).val + (i 2).val / 512, by omega⟩, flush0_2 _, ?_⟩
  obtain ⟨-, -, -, -, -, -, e0, e1, e2, -⟩ := idx_facts ⟨8 * (i 0).val + (i 2).val / 512, by omega⟩
  rw [mem_blk]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 4096 ≤ (i 1).val ∧ (i 1).val < win0_2.index _ (1 : Fin 3) * 4096 + 4096; rw [e1]; omega
  | ⟨2, _⟩ => show win0_2.index _ (2 : Fin 3) * 512 ≤ (i 2).val ∧ (i 2).val < win0_2.index _ (2 : Fin 3) * 512 + 512; rw [e2]; dsimp only; omega

/-- THE ARRAY AFTER THE RUN is the kernel's closed form of the reshaped arrays. -/
theorem final (c : Dev nD) : (dats m 0 c).arrAt 2 cfg0.N = GK (xarr m c) (yarr m c) :=
  (dats m 0 c).arrAt_eq_of_cover 2 (GK (xarr m c) (yarr m c)) (fun t _ => flushed_eq m c t) (cover)

/-- The reshaped arrays the region finds are the reshapes of the arguments. -/
theorem xarr_eq (c : Dev nD) :
    xarr m c = shapeCast S4x128x4096 (m ((c : Thread nD τ).loc main_arg0)) shapeCasts_S4x128x64x64_S4x128x4096 := by
  have e : (V m c main_v0 : S4x128x4096.Idx → EReal) = shapeCast S4x128x4096 (m ((c : Thread nD τ).loc main_arg0)) shapeCasts_S4x128x64x64_S4x128x4096 := by
    dsimp only [Gen.V, Gen.hostOps0]; after_results; rfl
  exact e
theorem yarr_eq (c : Dev nD) :
    yarr m c = shapeCast S4x128x4096 (m ((c : Thread nD τ).loc main_arg1)) shapeCasts_S4x128x64x64_S4x128x4096 := by
  have e : (V m c main_v1 : S4x128x4096.Idx → EReal) = shapeCast S4x128x4096 (m ((c : Thread nD τ).loc main_arg1)) shapeCasts_S4x128x64x64_S4x128x4096 := by
    dsimp only [Gen.V, Gen.hostOps0]; after_results; rfl
  exact e

/-- The run, read: the result array at the kernel's closed form of the reshaped arguments, the arguments unchanged. -/
theorem run : θ_run defs (onTc (τ := τ) (main (F := Ideal))) ⟨m, fun _ => 0, ρ⟩ fun r => ∀ c : Dev nD,
      r.2.mem ((c : Thread nD τ).loc main_v2)
        = GK (shapeCast S4x128x4096 (m ((c : Thread nD τ).loc main_arg0)) shapeCasts_S4x128x64x64_S4x128x4096)
            (shapeCast S4x128x4096 (m ((c : Thread nD τ).loc main_arg1)) shapeCasts_S4x128x64x64_S4x128x4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [xarr_eq, yarr_eq])), (h c).2⟩)
    (Value.run_blocks m ρ)

end Cert.KernelIdeal.NlmValue

end
-- ==== Proof.RefDiag.lean ====
/-
  Three reads of the reference program at an index, stated over arbitrary arrays.

  * The start indices of the diagonal gather: two columns, each holding i at row i (the wrap "add 4096 where negative"
    never applies to a value in [0, 4096)), joined along the column axis; every entry of row i is i.
  * The gather with offset axis 0, collapsed axes 1 and 2 and start-index map (1, 2): at start indices whose row i is
    (i, i) its result at (b, i) is the operand at (b, i, i), the diagonal.
  * The maximum-reduce over axis 1 of a [4, 4096, 4096] array: at (b, q) it is the fold of max, from the initial value,
    over the rows p of the operand at (b, p, q).
-/
import proofs.«401349_j18116172055210_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.NlmRef

open Cert.ReferenceIdeal Cert.ReferenceIdeal.Gen Idealize.ShloMosaic Idealize.ShloMosaic.ValueIdx

/-! ## Words below 4096 -/

/-- A natural below 4096, as a 32-bit word read signed, is itself. -/
theorem toInt_ofNat_small (n : Nat) (hn : n < 4096) : (BitVec.ofNat 32 n).toInt = (n : Int) := by
  have hm : (BitVec.ofNat 32 n).toNat = n := by
    rw [BitVec.toNat_ofNat]; exact Nat.mod_eq_of_lt (by omega)
  rw [BitVec.toInt_eq_toNat_of_lt (by rw [hm]; omega), hm]

/-- Read signed and clamped into [0, 4095], it is still itself. -/
theorem clamp_small (n : Nat) (hn : n < 4096) : min (BitVec.ofNat 32 n).toInt.toNat (4096 - 1) = n := by
  rw [toInt_ofNat_small n hn, Int.toNat_natCast]; omega

/-- Such a word is not negative, so "add 4096 where negative" leaves it as it is. -/
theorem wrap_small (n : Nat) (hn : n < 4096) :
    Scalar.select (IntOp.cmpi .slt (BitVec.ofNat 32 n) 0#32) (IntOp.addi (BitVec.ofNat 32 n) 4096#32) (BitVec.ofNat 32 n)
      = BitVec.ofNat 32 n := by
  have h : IntOp.cmpi .slt (BitVec.ofNat 32 n) 0#32 = 0#1 := by
    show BitVec.ofBool ((BitVec.ofNat 32 n).slt 0#32) = 0#1
    have hf : (BitVec.ofNat 32 n).slt 0#32 = false := by
      rw [BitVec.slt_eq_decide, toInt_ofNat_small n hn, BitVec.toInt_zero]
      exact decide_eq_false (by omega)
    rw [hf]; rfl
  rw [h]; exact select_zero _ _

/-! ## The two index columns joined -/

/-- Two single-column index arrays joined along the column axis: column 0 is the first, column 1 the second. When both
    hold i at row i, so does every entry of row i. -/
theorem concat_cols_apply (x₁ x₂ : S4096x1.Idx → BitVec 32)
    (h₁ : ∀ i : S4096x1.Idx, x₁ i = BitVec.ofNat 32 (i 0).val) (h₂ : ∀ i : S4096x1.Idx, x₂ i = BitVec.ofNat 32 (i 0).val)
    (j : S4096x2.Idx) :
    concatenate S4096x2 1 [⟨S4096x1, x₁⟩, ⟨S4096x1, x₂⟩] concatenates_S4096x1_S4096x1_S4096x2_d1 j
      = BitVec.ofNat 32 (j 0).val := by
  have hj : (j 1).val < 2 := (j 1).isLt
  by_cases hc : (j 1).val = 0
  · rw [concatenate_pair_apply_left (1 : Fin S4096x2.rank) x₁ x₂ concatenates_S4096x1_S4096x1_S4096x2_d1 j rfl
      (ix2 (j 0) ⟨0, Nat.one_pos⟩) (fun b => by
        match b with
        | ⟨0, _⟩ => rfl
        | ⟨1, _⟩ => exact hc.symm)]
    rw [h₁]
  · rw [concatenate_pair_apply_right (1 : Fin S4096x2.rank) x₁ x₂ concatenates_S4096x1_S4096x1_S4096x2_d1 j rfl rfl
      (ix2 (j 0) ⟨0, Nat.one_pos⟩) (fun b hb => by
        match b, hb with
        | ⟨0, _⟩, _ => rfl
        | ⟨1, _⟩, hb => exact absurd rfl hb)
      (by show 0 + 1 = (j 1).val; omega)]
    rw [h₂]

/-! ## The diagonal gather -/

section Diag
variable {α : Type}

/-- The gather's dimension numbers: offset axis 0, collapsed axes 1 and 2, start-index map (1, 2), index vectors along
    axis 1, slices of sizes (4, 1, 1). -/
abbrev dg := gather_S4x4096x4096_S4096x2_S4x4096_0_12_n_n_12_1_411

/-- On operand axis 0 (the offset axis, a full slice from 0) result index (b, i) reads coordinate b. -/
theorem opIdx0 (idx : IVec S4096x2 32) (j : S4x4096.Idx) : (dg.operandIdx j idx 0).val = (j 0).val := by
  show dg.start j idx 0 + dg.batchCoord j 0 + dg.offCoord j 0 = _
  rw [GatherDims.batchCoord_eq_zero _ _ _ List.not_mem_nil, Nat.add_zero]
  have hs : dg.start j idx 0 = 0 := by
    unfold GatherDims.start; rw [dif_neg (by decide)]
  rw [hs, Nat.zero_add]
  unfold GatherDims.offCoord
  rw [dif_pos (by decide)]
  rfl

/-- On operand axis 1 it reads the clamped start index's component 0 at row i, which is i. -/
theorem opIdx1 (idx : IVec S4096x2 32) (hidx : ∀ j : S4096x2.Idx, idx j = BitVec.ofNat 32 (j 0).val) (j : S4x4096.Idx) :
    (dg.operandIdx j idx 1).val = (j 1).val := by
  show dg.start j idx 1 + dg.batchCoord j 1 + dg.offCoord j 1 = _
  rw [GatherDims.batchCoord_eq_zero _ _ _ List.not_mem_nil, Nat.add_zero,
    GatherDims.offCoord_eq_zero _ _ _ (by decide), Nat.add_zero]
  unfold GatherDims.start
  rw [dif_pos (by decide), hidx]
  show min (BitVec.ofNat 32 (j 1).val).toInt.toNat (4096 - 1) = (j 1).val
  exact clamp_small _ (j 1).isLt

/-- On operand axis 2 it reads the clamped start index's component 1 at row i, which is i too. -/
theorem opIdx2 (idx : IVec S4096x2 32) (hidx : ∀ j : S4096x2.Idx, idx j = BitVec.ofNat 32 (j 0).val) (j : S4x4096.Idx) :
    (dg.operandIdx j idx 2).val = (j 1).val := by
  show dg.start j idx 2 + dg.batchCoord j 2 + dg.offCoord j 2 = _
  rw [GatherDims.batchCoord_eq_zero _ _ _ List.not_mem_nil, Nat.add_zero,
    GatherDims.offCoord_eq_zero _ _ _ (by decide), Nat.add_zero]
  unfold GatherDims.start
  rw [dif_pos (by decide), hidx]
  show min (BitVec.ofNat 32 (j 1).val).toInt.toNat (4096 - 1) = (j 1).val
  exact clamp_small _ (j 1).isLt

/-- The gather, at start indices whose row i is (i, i), reads the diagonal: result (b, i) is the operand at (b, i, i). -/
theorem diag_apply (A : S4x4096x4096.Idx → α) (idx : IVec S4096x2 32)
    (hidx : ∀ j : S4096x2.Idx, idx j = BitVec.ofNat 32 (j 0).val) (j : S4x4096.Idx) :
    Host.gather gather_S4x4096x4096_S4096x2_S4x4096_0_12_n_n_12_1_411 A idx j = A (ix3 (j 0) (j 1) (j 1)) := by
  unfold Host.gather
  congr 1
  funext a
  refine Fin.ext ?_
  match a with
  | ⟨0, _⟩ => exact opIdx0 idx j
  | ⟨1, _⟩ => exact opIdx1 idx hidx j
  | ⟨2, _⟩ => exact opIdx2 idx hidx j

end Diag

/-! ## The column maximum -/

/-- The maximum-reduce over the row axis from an initial value, at (b, q): the fold of max from the initial value over
    the rows p of the operand at (b, p, q). -/
theorem colmax_apply (x : S4x4096x4096.Idx → EReal) (init : S_.Idx → EReal) (j : S4x4096.Idx) :
    Host.reduce (FloatOps.maximumf (F := Ideal) (φ := .f32)) x init reducesTo_S4x4096x4096_S4x4096_d1 h_S_ j
      = (Finset.univ : Finset (Fin 4096)).fold max (init (Shape.Idx.first h_S_)) (fun p => x (ix3 (j 0) p (j 1))) := by
  have h : S4x4096x4096.Reduces [1] S4x4096 := by decide
  rw [Host.reduce_eq_fold_single (FloatOps.maximumf (F := Ideal) (φ := .f32)) x init
    reducesTo_S4x4096x4096_S4x4096_d1 h h_S_ j]
  have e : (x ∘ h.lift j) = fun p : Fin 4096 => x (ix3 (j 0) p (j 1)) :=
    funext fun p => congrArg x (funext fun a => Fin.ext (by
      match a with
      | ⟨0, _⟩ => rfl
      | ⟨1, _⟩ => rfl
      | ⟨2, _⟩ => rfl))
  exact congrArg (fun g => Finset.fold max (init (Shape.Idx.first h_S_)) g (Finset.univ : Finset (Fin 4096))) e

end Cert.ReferenceIdeal.NlmRef

end
-- ==== Proof.RefValue.lean ====
/-
  The reference program's result, read index by index, is the reference's closed form of the reshaped inputs.

  With X, Y the two reshaped inputs and A[b, p, q] = Σ_k X[b, k, p] · Y[b, k, q]:
    the contraction is A; the gathered diagonal at (b, p) is A[b, p, p];
    the twice-shifted affinity at (b, p, q) is (A[b, p, q] − ½ · A[b, p, p]) − ½ · A[b, q, q], the score;
    the maximum-reduce over the rows from −∞ is the column maximum, and a further maximum with −∞ leaves it;
    the exponential of score minus column maximum is the weight; the sum-reduce over the rows from 0 is the column's
    sum of weights; the quotient is the result.
-/
import proofs.«401349_j18116172055210_3_alg».proof.Proof.RefRead
import proofs.«401349_j18116172055210_3_alg».proof.Proof.RefDiag
import proofs.«401349_j18116172055210_3_alg».proof.Proof.Spec

noncomputable section

namespace Cert.ReferenceIdeal.NlmRef

open Cert.ReferenceIdeal Cert.ReferenceIdeal.Gen Idealize.ShloMosaic Idealize.ShloMosaic.ValueIdx

/-- The f32 word of −∞ denotes the bottom extended real. -/
theorem ofBits_neg_inf : Ideal.ofBits .f32 0xFF800000#32 = ⊥ := by simp [Ideal.ofBits, Ideal.ieee]

/-- The start indices of the diagonal gather hold i in both entries of row i. -/
theorem idx_rows (j : S4096x2.Idx) : ReadP.val_main_call0_v14 (F := Ideal) j = BitVec.ofNat 32 (j 0).val := by
  unfold ReadP.val_main_call0_v14
  exact concat_cols_apply _ _
    (fun i => by
      rw [ReadP.val_main_call0_v12_apply, ReadP.val_main_call0_v6_apply, ReadP.val_main_call0_v3_apply,
        ReadP.val_main_call0_v5_apply, ReadP.val_main_call0_v0_apply, ReadP.val_main_call0_v2_apply,
        ReadP.val_main_call0_c_apply, ReadP.val_main_call0_v4_apply, ReadP.val_main_call0_c_0_apply]
      exact wrap_small _ (i 0).isLt)
    (fun i => by
      rw [ReadP.val_main_call0_v13_apply, ReadP.val_main_call0_v11_apply, ReadP.val_main_call0_v8_apply,
        ReadP.val_main_call0_v10_apply, ReadP.val_main_call0_v1_apply, ReadP.val_main_call0_v7_apply,
        ReadP.val_main_call0_c_1_apply, ReadP.val_main_call0_v9_apply, ReadP.val_main_call0_c_2_apply]
      exact wrap_small _ (i 0).isLt)
    j

section Stages
variable (x0 x1 : (⟨S4x128x64x64, .f32⟩ : BufTy).Contents (Elt Ideal))

/-- The contraction at (b, p, q) is the affinity A[b, p, q] of the reshaped inputs. -/
theorem v2_at (b : Fin 4) (p q : Fin 4096) :
    ReadP.val_main_v2 (F := Ideal) x0 x1 (ix3 b p q)
      = Cert.Nlm.aff (ReadP.val_main_v0 (F := Ideal) x0) (ReadP.val_main_v1 (F := Ideal) x1) b p q := by
  rw [ReadP.val_main_v2_apply]
  unfold Cert.Nlm.aff
  refine Finset.sum_congr rfl fun k _ => ?_
  rw [show ReadP.lidx_main_v2 (ix3 b p q) k = ix3 b k p from
      funext fun a => Fin.ext (by match a with | ⟨0, _⟩ => rfl | ⟨1, _⟩ => rfl | ⟨2, _⟩ => rfl),
    show ReadP.ridx_main_v2 (ix3 b p q) k = ix3 b k q from
      funext fun a => Fin.ext (by match a with | ⟨0, _⟩ => rfl | ⟨1, _⟩ => rfl | ⟨2, _⟩ => rfl)]

/-- The gathered diagonal at (b, p) is A[b, p, p]. -/
theorem v3_at (b : Fin 4) (p : Fin 4096) :
    ReadP.val_main_v3 (F := Ideal) x0 x1 (ix2 b p)
      = Cert.Nlm.aff (ReadP.val_main_v0 (F := Ideal) x0) (ReadP.val_main_v1 (F := Ideal) x1) b p p := by
  unfold ReadP.val_main_v3
  exact (diag_apply _ _ idx_rows _).trans (v2_at x0 x1 b p p)

/-- The twice-shifted affinity at (b, p, q) is the reference's score. -/
theorem v13_at (b : Fin 4) (p q : Fin 4096) :
    ReadP.val_main_v13 (F := Ideal) x0 x1 (ix3 b p q)
      = Cert.Nlm.scoreR (ReadP.val_main_v0 (F := Ideal) x0) (ReadP.val_main_v1 (F := Ideal) x1) b p q := by
  rw [ReadP.val_main_v13_apply, ReadP.val_main_v8_apply, ReadP.val_main_v12_apply, ReadP.val_main_v11_apply,
    ReadP.val_main_v10_apply, ReadP.val_main_cst_0_apply, ReadP.val_main_v9_apply,
    ReadP.val_main_v7_apply, ReadP.val_main_v6_apply, ReadP.val_main_v5_apply, ReadP.val_main_cst_apply,
    ReadP.val_main_v4_apply,
    show ReadP.idx_main_v4 (ReadP.idx_main_v7 (ix3 b p q)) = ix2 b p from
      funext fun a => Fin.ext (by match a with | ⟨0, _⟩ => rfl | ⟨1, _⟩ => rfl),
    show ReadP.idx_main_v9 (ReadP.idx_main_v12 (ix3 b p q)) = ix2 b q from
      funext fun a => Fin.ext (by match a with | ⟨0, _⟩ => rfl | ⟨1, _⟩ => rfl),
    v3_at, v3_at, v2_at]
  rfl

/-- The maximum-reduce at (b, q) is the running maximum from −∞ of column q's scores. -/
theorem v14_at (b : Fin 4) (q : Fin 4096) :
    ReadP.val_main_v14 (F := Ideal) x0 x1 (ix2 b q)
      = Cert.Nlm.colMaxR (ReadP.val_main_v0 (F := Ideal) x0) (ReadP.val_main_v1 (F := Ideal) x1) b q := by
  unfold ReadP.val_main_v14
  rw [colmax_apply, ReadP.val_main_cst_1_apply, Ideal.ofBits_def, ofBits_neg_inf]
  unfold Cert.Nlm.colMaxR
  refine congrArg (fun g => Finset.fold max ⊥ g (Finset.univ : Finset (Fin 4096))) (funext fun p => ?_)
  exact v13_at x0 x1 b p q

/-- Taking the maximum with −∞ once more changes nothing. -/
theorem v16_at (b : Fin 4) (q : Fin 4096) :
    ReadP.val_main_v16 (F := Ideal) x0 x1 (ix2 b q)
      = Cert.Nlm.colMaxR (ReadP.val_main_v0 (F := Ideal) x0) (ReadP.val_main_v1 (F := Ideal) x1) b q := by
  rw [ReadP.val_main_v16_apply, ReadP.val_main_v15_apply, ReadP.val_main_cst_2_apply, v14_at, Ideal.maximumf_def,
    Ideal.ofBits_def, ofBits_neg_inf]
  exact max_bot_left _

/-- The exponential of score minus column maximum is the softmax weight. -/
theorem v20_at (b : Fin 4) (p q : Fin 4096) :
    ReadP.val_main_v20 (F := Ideal) x0 x1 (ix3 b p q)
      = Cert.Nlm.weightR (ReadP.val_main_v0 (F := Ideal) x0) (ReadP.val_main_v1 (F := Ideal) x1) b p q := by
  rw [ReadP.val_main_v20_apply, ReadP.val_main_v19_apply, ReadP.val_main_v18_apply, ReadP.val_main_v17_apply,
    show ReadP.idx_main_v17 (ReadP.idx_main_v18 (ix3 b p q)) = ix2 b q from
      funext fun a => Fin.ext (by match a with | ⟨0, _⟩ => rfl | ⟨1, _⟩ => rfl),
    v16_at, v13_at]
  rfl

/-- The sum-reduce at (b, q), from 0, is the sum of column q's weights. -/
theorem v21_at (b : Fin 4) (q : Fin 4096) :
    ReadP.val_main_v21 (F := Ideal) x0 x1 (ix2 b q)
      = ∑ p : Fin 4096, Cert.Nlm.weightR (ReadP.val_main_v0 (F := Ideal) x0) (ReadP.val_main_v1 (F := Ideal) x1) b p q := by
  rw [ReadP.val_main_v21_apply, ReadP.val_main_cst_3_apply, Ideal.ofBits_def, Ideal.ofBits_zero_f32, zero_add]
  refine Finset.sum_congr rfl fun k _ => ?_
  rw [show ReadP.idx_main_v21 (ix2 b q) k = ix3 b k q from
      funext fun a => Fin.ext (by match a with | ⟨0, _⟩ => rfl | ⟨1, _⟩ => rfl | ⟨2, _⟩ => rfl)]
  exact v20_at x0 x1 b k q

end Stages

/-- The last stage of the reference's run is the reference's closed form of the two reshaped inputs. -/
theorem result_eq (x0 x1 : (⟨S4x128x64x64, .f32⟩ : BufTy).Contents (Elt Ideal)) :
    ReadP.val_main_v24 (F := Ideal) x0 x1
      = Cert.Nlm.GR (ReadP.val_main_v0 (F := Ideal) x0) (ReadP.val_main_v1 (F := Ideal) x1) := by
  funext i
  obtain ⟨b, p, q, rfl⟩ : ∃ (b : Fin 4) (p q : Fin 4096), i = ix3 b p q := ⟨i 0, i 1, i 2, eq_ix3 i⟩
  rw [ReadP.val_main_v24_apply, ReadP.val_main_v23_apply, ReadP.val_main_v22_apply,
    show ReadP.idx_main_v22 (ReadP.idx_main_v23 (ix3 b p q)) = ix2 b q from
      funext fun a => Fin.ext (by match a with | ⟨0, _⟩ => rfl | ⟨1, _⟩ => rfl),
    v21_at, v20_at]
  rfl

end Cert.ReferenceIdeal.NlmRef

end
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.LibExtrema.lean ====
/-
  Extrema of a whole array on the host, at the exact instance.

  A host maximum-reduce over ALL axes of an array (jnp.max(x): the result has one index) from the initial value −∞ is
  the greatest entry; a minimum-reduce from +∞ is the least.  So when every entry is a real number the result is a
  real number too (the array has at least one entry), every entry lies between the least and the greatest, and if
  max(|least|, |greatest|) is 0 then every entry is 0.  Also: what the test  |x| < +∞  says of an extended real.
-/
import Idealize.ShloMosaic.PureOps.Ideal
import Idealize.ShloMosaic.PureOps.Ideal.Laws
import Idealize.ShloMosaic.PureOps.Reduce

noncomputable section

namespace Cert.LibExtrema

open Idealize.ShloMosaic

variable {s t u : Shape} {axes : List (Fin s.rank)}

/-- The scalar shape has one index. -/
instance scalarIdx_subsingleton : Subsingleton (⟨0, ![]⟩ : Shape).Idx := ⟨fun _ _ => funext fun d => d.elim0⟩

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- A maximum-reduce into a result of one index is the maximum, from the initial value, over every entry. -/
theorem reduce_max_eq_fold [Subsingleton t.Idx] (x : s.Idx → Ideal .f32) (init : u.Idx → Ideal .f32)
    (h : s.ReducesTo axes t) (hu : 0 < u.numel) (j : t.Idx) :
    Host.reduce (FloatOps.maximumf (F := Ideal) (φ := .f32)) x init h hu j
      = (Finset.univ : Finset s.Idx).fold (max : EReal → EReal → EReal) (init (Shape.Idx.first hu)) x := by
  rw [Host.reduce_eq_fold, Finset.filter_true_of_mem (fun i _ => Subsingleton.elim _ _)]
  rfl

/-- A minimum-reduce into a result of one index is the minimum, from the initial value, over every entry. -/
theorem reduce_min_eq_fold [Subsingleton t.Idx] (x : s.Idx → Ideal .f32) (init : u.Idx → Ideal .f32)
    (h : s.ReducesTo axes t) (hu : 0 < u.numel) (j : t.Idx) :
    Host.reduce (FloatOps.minimumf (F := Ideal) (φ := .f32)) x init h hu j
      = (Finset.univ : Finset s.Idx).fold (min : EReal → EReal → EReal) (init (Shape.Idx.first hu)) x := by
  rw [Host.reduce_eq_fold, Finset.filter_true_of_mem (fun i _ => Subsingleton.elim _ _)]
  rfl

/-- Every entry is at most the array's maximum. -/
theorem le_reduce_max [Subsingleton t.Idx] (x : s.Idx → Ideal .f32) (init : u.Idx → Ideal .f32)
    (h : s.ReducesTo axes t) (hu : 0 < u.numel) (j : t.Idx) (i : s.Idx) :
    x i ≤ Host.reduce (FloatOps.maximumf (F := Ideal) (φ := .f32)) x init h hu j := by
  rw [reduce_max_eq_fold]
  exact (Finset.le_fold_max _).2 (Or.inr ⟨i, Finset.mem_univ i, le_rfl⟩)

/-- The array's minimum is at most every entry. -/
theorem reduce_min_le [Subsingleton t.Idx] (x : s.Idx → Ideal .f32) (init : u.Idx → Ideal .f32)
    (h : s.ReducesTo axes t) (hu : 0 < u.numel) (j : t.Idx) (i : s.Idx) :
    Host.reduce (FloatOps.minimumf (F := Ideal) (φ := .f32)) x init h hu j ≤ x i := by
  rw [reduce_min_eq_fold]
  exact (Finset.fold_min_le _).2 (Or.inr ⟨i, Finset.mem_univ i, le_rfl⟩)

/-- The maximum, from −∞, of an array with an entry and with every entry real is real. -/
theorem reduce_max_real [Subsingleton t.Idx] (x : s.Idx → Ideal .f32) (init : u.Idx → Ideal .f32)
    (h : s.ReducesTo axes t) (hu : 0 < u.numel) (j : t.Idx) (hinit : init (Shape.Idx.first hu) = ⊥)
    (hx : ∀ i, x i ≠ ⊤ ∧ x i ≠ ⊥) (i0 : s.Idx) :
    Host.reduce (FloatOps.maximumf (F := Ideal) (φ := .f32)) x init h hu j ≠ ⊤
      ∧ Host.reduce (FloatOps.maximumf (F := Ideal) (φ := .f32)) x init h hu j ≠ ⊥ := by
  refine ⟨?_, fun e => (hx i0).2 (le_bot_iff.1 (e ▸ le_reduce_max x init h hu j i0))⟩
  rw [reduce_max_eq_fold, hinit]
  exact ((Finset.fold_max_lt _).2 ⟨bot_lt_top, fun i _ => lt_top_iff_ne_top.2 (hx i).1⟩).ne

/-- The minimum, from +∞, of an array with an entry and with every entry real is real. -/
theorem reduce_min_real [Subsingleton t.Idx] (x : s.Idx → Ideal .f32) (init : u.Idx → Ideal .f32)
    (h : s.ReducesTo axes t) (hu : 0 < u.numel) (j : t.Idx) (hinit : init (Shape.Idx.first hu) = ⊤)
    (hx : ∀ i, x i ≠ ⊤ ∧ x i ≠ ⊥) (i0 : s.Idx) :
    Host.reduce (FloatOps.minimumf (F := Ideal) (φ := .f32)) x init h hu j ≠ ⊤
      ∧ Host.reduce (FloatOps.minimumf (F := Ideal) (φ := .f32)) x init h hu j ≠ ⊥ := by
  refine ⟨fun e => (hx i0).1 (top_le_iff.1 (e ▸ reduce_min_le x init h hu j i0)), ?_⟩
  rw [reduce_min_eq_fold, hinit]
  exact ((Finset.lt_fold_min _).2 ⟨bot_lt_top, fun i _ => bot_lt_iff_ne_bot.2 (hx i).2⟩).ne'

/-- The magnitude max(y, −y) of a real is real. -/
theorem abs_real (y : EReal) (hy : y ≠ ⊤ ∧ y ≠ ⊥) : max y (-y) ≠ ⊤ ∧ max y (-y) ≠ ⊥ := by
  obtain ⟨r, rfl⟩ : ∃ r : ℝ, y = r := ⟨y.toReal, (EReal.coe_toReal hy.1 hy.2).symm⟩
  rcases max_choice (r : EReal) (-(r : EReal)) with e | e <;> rw [e]
  · exact ⟨EReal.coe_ne_top r, EReal.coe_ne_bot r⟩
  · rw [← EReal.coe_neg]; exact ⟨EReal.coe_ne_top _, EReal.coe_ne_bot _⟩

/-- The larger of two reals is real. -/
theorem max_real (a b : EReal) (ha : a ≠ ⊤ ∧ a ≠ ⊥) (hb : b ≠ ⊤ ∧ b ≠ ⊥) : max a b ≠ ⊤ ∧ max a b ≠ ⊥ := by
  rcases max_choice a b with e | e <;> rw [e]
  exacts [ha, hb]

/-- If the larger of |lo| and |hi| is 0, everything between lo and hi is 0. -/
theorem eq_zero_of_maxAbs_eq_zero {ι : Type} (lo hi : EReal) (x : ι → EReal) (hlo : ∀ i, lo ≤ x i) (hhi : ∀ i, x i ≤ hi)
    (h : max (max lo (-lo)) (max hi (-hi)) = 0) (i : ι) : x i = 0 := by
  have h1 : -lo ≤ 0 := ((le_max_right lo (-lo)).trans (le_max_left _ _)).trans h.le
  have h2 : hi ≤ 0 := ((le_max_left hi (-hi)).trans (le_max_right _ _)).trans h.le
  have h3 : 0 ≤ lo := by have := EReal.neg_le.1 h1; rwa [neg_zero] at this
  exact le_antisymm ((hhi i).trans h2) (h3.trans (hlo i))

/-- The test |x| < +∞ answers 1 exactly for the reals. -/
theorem real_of_abs_lt_inf (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; exact absurd hlt (by simp)
  · rintro rfl; exact absurd hlt (by simp)

end Cert.LibExtrema

end
-- ==== Proof.Math.lean ====
/-
  The kernel's closed form and the reference's closed form are one function when every input entry is a real number.

  With every entry real, x − x = 0, so the kernel's two residual sums vanish and its score is the real number
      s[b, p, q] = A[b, p, q] − ½ · A[b, p, p];
  the reference's score is s[b, p, q] − c[b, q] with c[b, q] = ½ · A[b, q, q], a real constant along the softmax
  axis p. Subtracting a constant commutes with the running maximum, so the reference's column maximum is the
  kernel's minus c, the constant cancels in score − maximum, and weights and quotients agree.
-/
import proofs.«401349_j18116172055210_3_alg».proof.Proof.Spec
import proofs.«401349_j18116172055210_3_alg».proof.Proof.LibSoftmaxReal
import proofs.«401349_j18116172055210_3_alg».proof.Proof.LibExtrema
import Mathlib.Data.EReal.Basic
import Mathlib.Data.EReal.Operations
import Mathlib.Data.Finset.Fold
import Mathlib.Order.MinMax
import Mathlib.Tactic.Ring
import Mathlib.Tactic.NormNum.Basic

noncomputable section

namespace Cert.Nlm

open Idealize.ShloMosaic Idealize.ShloMosaic.ValueIdx

/-- The literal one half is the real number 1/2. -/
theorem half_eq : half = (((1 / 2 : ℝ)) : EReal) := by
  unfold half
  simp [Ideal.ofBits, Ideal.ieee, -EReal.coe_mul]; norm_num

/-- Subtracting a real constant commutes with the running maximum from −∞: x ↦ x − c is monotone on the extended
    reals and sends −∞ to −∞. -/
theorem fold_max_sub_const {K : Type} (S : Finset K) (g : K → EReal) (c : EReal) :
    S.fold max (⊥ : EReal) (fun k => g k - c) = S.fold max (⊥ : EReal) g - c := by
  have hmono : Monotone (fun x : EReal => x - c) := fun x y hxy => EReal.sub_le_sub hxy le_rfl
  have h := Finset.fold_hom (op := (max : EReal → EReal → EReal)) (op' := (max : EReal → EReal → EReal))
    (m := fun x : EReal => x - c) (b := (⊥ : EReal)) (s := S) (f := g) (fun x y => hmono.map_max)
  rw [← h, EReal.bot_sub]

/-- The real score both forms share before the column's constant is taken off. -/
def sReal (a b : SIn.Idx → ℝ) (bb : Fin 4) (p q : Fin 4096) : ℝ :=
  (∑ k : Fin 128, a (ix3 bb k p) * b (ix3 bb k q)) - (1 / 2) * ∑ k : Fin 128, a (ix3 bb k p) * b (ix3 bb k p)

/-- The column's constant: half the diagonal affinity at the column. -/
def cReal (a b : SIn.Idx → ℝ) (bb : Fin 4) (q : Fin 4096) : ℝ :=
  (1 / 2) * ∑ k : Fin 128, a (ix3 bb k q) * b (ix3 bb k q)

/-- On real inputs the kernel's score is the shared real score: the two residual sums are sums of zeros. -/
theorem scoreK_coe (a b : SIn.Idx → ℝ) (bb : Fin 4) (p q : Fin 4096) :
    scoreK (fun i => (a i : EReal)) (fun i => (b i : EReal)) bb p q = ((sReal a b bb p q : ℝ) : EReal) := by
  unfold scoreK sReal
  rw [half_eq]
  simp only [← EReal.coe_sub, ← EReal.coe_mul, ← Cert.RealLemmas.coe_sum, ← EReal.coe_add]
  congr 1
  simp only [sub_self, mul_zero, zero_mul, Finset.sum_const_zero, add_zero]

/-- On real inputs the reference's score is the shared real score minus the column's constant. -/
theorem scoreR_coe (a b : SIn.Idx → ℝ) (bb : Fin 4) (p q : Fin 4096) :
    scoreR (fun i => (a i : EReal)) (fun i => (b i : EReal)) bb p q
      = ((sReal a b bb p q - cReal a b bb q : ℝ) : EReal) := by
  unfold scoreR aff sReal cReal
  rw [half_eq]
  simp only [← EReal.coe_sub, ← EReal.coe_mul, ← Cert.RealLemmas.coe_sum]

/-- On real inputs the two softmax weights agree: the column's constant leaves the score and the column maximum
    alike, so it cancels in their difference. -/
theorem weightK_eq_weightR_coe (a b : SIn.Idx → ℝ) (bb : Fin 4) (p q : Fin 4096) :
    weightK (fun i => (a i : EReal)) (fun i => (b i : EReal)) bb p q
      = weightR (fun i => (a i : EReal)) (fun i => (b i : EReal)) bb p q := by
  -- the kernel's column maximum is a real M, the column having 4096 real entries
  obtain ⟨M, hM⟩ := Cert.RealLemmas.fold_max_coe (n := 4095) (fun p' : Fin 4096 => sReal a b bb p' q)
  have hK : colMaxK (fun i => (a i : EReal)) (fun i => (b i : EReal)) bb q = (M : EReal) := by
    unfold colMaxK
    simp only [scoreK_coe]
    exact hM
  -- the reference's column maximum is M − c
  have hR : colMaxR (fun i => (a i : EReal)) (fun i => (b i : EReal)) bb q = ((M - cReal a b bb q : ℝ) : EReal) := by
    unfold colMaxR
    simp only [scoreR_coe, EReal.coe_sub]
    rw [fold_max_sub_const, hM]
  unfold weightK weightR
  rw [hK, hR, scoreK_coe, scoreR_coe, ← EReal.coe_sub, ← EReal.coe_sub]
  have e : sReal a b bb p q - cReal a b bb q - (M - cReal a b bb q) = sReal a b bb p q - M := by ring
  rw [e]

/-- With every entry of X and Y real, the kernel's form and the reference's form agree at every index. -/
theorem GK_eq_GR (X Y : SIn.Idx → EReal) (hX : ∀ i, X i ≠ ⊤ ∧ X i ≠ ⊥) (hY : ∀ i, Y i ≠ ⊤ ∧ Y i ≠ ⊥) :
    GK X Y = GR X Y := by
  -- name the real entries
  obtain ⟨a, rfl⟩ : ∃ a : SIn.Idx → ℝ, X = fun i => (a i : EReal) :=
    ⟨fun i => (X i).toReal, funext fun i => (EReal.coe_toReal (hX i).1 (hX i).2).symm⟩
  obtain ⟨b, rfl⟩ : ∃ b : SIn.Idx → ℝ, Y = fun i => (b i : EReal) :=
    ⟨fun i => (Y i).toReal, funext fun i => (EReal.coe_toReal (hY i).1 (hY i).2).symm⟩
  -- the weights agree as functions, and the two results are the same expression in the weights
  have hw : weightK (fun i => (a i : EReal)) (fun i => (b i : EReal))
      = weightR (fun i => (a i : EReal)) (fun i => (b i : EReal)) := by
    funext bb p q
    exact weightK_eq_weightR_coe a b bb p q
  unfold GK GR
  rw [hw]

end Cert.Nlm

end
-- ==== Proof.Finite.lean ====
/-
  The precondition says every entry of both inputs is a real number.
-/
import proofs.«401349_j18116172055210_3_alg».proof.Pre_finite_inputs
import proofs.«401349_j18116172055210_3_alg».proof.Proof.Gen.Pre_finite_inputs
import proofs.«401349_j18116172055210_3_alg».proof.Proof.LibExtrema
import Idealize.ShloMosaic.PureOps.Ideal
import Idealize.ShloMosaic.Lib.ValueIdx
import Idealize.ShloMosaic.Lib.ReduceAll

noncomputable section

namespace Cert.Nlm

open Idealize.ShloMosaic Idealize.ShloMosaic.ValueIdx

/-- If the printed precondition evaluates to all ones on two input arrays, every entry of each is neither +∞ nor −∞. -/
theorem finite_of_pre (a0 a1 : FVec Ideal Cert.Pre_finite_inputs.S4x128x64x64 .f32)
    (h : Cert.Pre_finite_inputs.fn (F := Ideal) a0 a1 = (fun _ => 1#1)) :
    (∀ i, a0 i ≠ ⊤ ∧ a0 i ≠ ⊥) ∧ (∀ i, a1 i ≠ ⊤ ∧ a1 i ≠ ⊥) := by
  -- the one entry of the result is 1: it is the conjunction of the two tests "every entry has |x| < +∞"
  have h0 := congrFun h ValueIdx.ix0
  dsimp only [Cert.Pre_finite_inputs.fn] at h0
  obtain ⟨h1, h2⟩ := IntOp.andi_eq_one.1 h0
  refine ⟨fun i => ?_, fun i => ?_⟩
  · -- a conjunction over all entries that is 1 met a 1 at every entry; there the test reads max x (−x) < +∞
    exact Cert.LibExtrema.real_of_abs_lt_inf (a0 i) (Host.reduce_andi_all _ _ _ _ _ h1 i)
  · exact Cert.LibExtrema.real_of_abs_lt_inf (a1 i) (Host.reduce_andi_all _ _ _ _ _ h2 i)

end Cert.Nlm

end
-- ==== Proof.lean ====
/-
  Kernel against reference: a softmax over the rows of a shifted affinity matrix.

  Both programs reshape the two inputs to X, Y : [4, 128, 4096] and form the affinity A[b, p, q] = Σ_k X[b, k, p] · Y[b, k, q].
  The reference subtracts ½·A[b, p, p] and ½·A[b, q, q] and takes the softmax over p of every column q.  The kernel works
  tile by tile (batch b, 512 columns at a time): it splits each operand into a leading part and a residual and adds three
  partial products — over the extended reals the leading part is the operand and the residual is x − x —, subtracts only the
  row's ½·A[b, p, p], and takes the same column softmax; the diagonal sums and the split first operand are computed at a
  batch's first tile and kept for its other seven.

  With every input entry a real number (the precondition) the two are one function: x − x = 0 removes the residual
  products, and the column's own ½·A[b, q, q] is constant along the softmax axis, so it shifts the column maximum by the
  same amount and cancels in score − maximum.

  The kernel's run is read off the generated frame run (what each point leaves, by induction over the points; the tiles
  cover the array); the reference's run is its 49 host operations closed in five stretches and read stage by stage
  (the diagonal is a gather at an index table, the column maximum a reduce); the precondition is decoded to "every entry
  is real"; the two closed forms are joined over the reals.
-/
import proofs.«401349_j18116172055210_3_alg».proof.Defs
import proofs.«401349_j18116172055210_3_alg».proof.Proof.Gen.Kernel
import proofs.«401349_j18116172055210_3_alg».proof.Proof.Gen.Kernel.Skeleton
import proofs.«401349_j18116172055210_3_alg».proof.Proof.Gen.Kernel.Launch
import proofs.«401349_j18116172055210_3_alg».proof.Proof.Gen.Kernel.Points
import proofs.«401349_j18116172055210_3_alg».proof.Proof.Gen.Kernel.Frame
import proofs.«401349_j18116172055210_3_alg».proof.Proof.Gen.KernelIdeal
import proofs.«401349_j18116172055210_3_alg».proof.Proof.Gen.KernelIdeal.Skeleton
import proofs.«401349_j18116172055210_3_alg».proof.Proof.Gen.KernelIdeal.Launch
import proofs.«401349_j18116172055210_3_alg».proof.Proof.Gen.KernelIdeal.Points
import proofs.«401349_j18116172055210_3_alg».proof.Proof.Gen.KernelIdeal.Frame
import proofs.«401349_j18116172055210_3_alg».proof.Proof.Gen.ReferenceIdeal
import proofs.«401349_j18116172055210_3_alg».proof.Proof.Gen.Pre_finite_inputs
import proofs.«401349_j18116172055210_3_alg».proof.Proof.Gen.KernelIdeal.Value
import proofs.«401349_j18116172055210_3_alg».proof.Proof.KValue
import proofs.«401349_j18116172055210_3_alg».proof.Proof.RefRun
import proofs.«401349_j18116172055210_3_alg».proof.Proof.RefValue
import proofs.«401349_j18116172055210_3_alg».proof.Proof.Math
import proofs.«401349_j18116172055210_3_alg».proof.Proof.Finite
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two rewrites of the idealization: a round trip through the narrower format is the identity on extended reals
    and the rounding on words, at both shapes it was removed at. -/
theorem preserves : Cert.preserves_Kernel_KernelIdeal :=
  ⟨IdealRules.truncf_extf.statement _ .f32 .bf16, IdealRules.truncf_extf.statement _ .f32 .bf16⟩

/-- Both runs end; the kernel's result array is the kernel's closed form of the reshaped arguments, the reference's is the
    reference's closed form of the same arrays, and with every entry real the two closed forms agree. -/
theorem algebraic : Cert.algebraic_KernelIdeal_ReferenceIdeal := by
  intro m ρ m' ρ' hpre hagree
  refine ⟨_, Cert.KernelIdeal.NlmValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.Nlm.finite_of_pre _ _ (hpre c)
  rw [(hagree c).1, (hagree c).2, Cert.ReferenceIdeal.NlmRef.result_eq]
  exact (Cert.Nlm.GK_eq_GR _ _ (fun i => h0 _) (fun i => h1 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
